-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 66
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000, .f32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000, .f32⟩
  | .hbm, ⟨76, _⟩ => ⟨S100000x1, .f32⟩
  | .hbm, ⟨77, _⟩ => ⟨S_, .f32⟩
  | .hbm, ⟨78, _⟩ => ⟨S100000x1, .f32⟩
  | .hbm, ⟨79, _⟩ => ⟨S100000x1, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call1_cst : Ref sig .tc := ⟨.hbm, 94, rfl⟩
abbrev main_call1_v0 : Ref sig .tc := ⟨.hbm, 95, rfl⟩
abbrev main_v72 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  One graph-convolution layer's two dense stages, as whole-array functions over the extended reals.

  `dense x w` is the node-feature transform h = x · w: entry (r, q) is the sum over the 128 input features k of
  x[r, k] · w[k, q].  `lnRelu a b g be` is what follows the neighbourhood aggregation `a`: the bias is added, each
  node's row of 128 features is normalised to mean zero and variance one (the mean and the variance are the row's sum
  and the row's sum of squared deviations divided by 128; the deviation is scaled by the reciprocal square root of the
  variance plus a small constant), the learnt scale `g` and shift `be` are applied per feature, and negative entries
  are clipped to zero.  Every node's row is treated alone, so a tile of rows of the result depends only on the same
  rows of `a`: that is why computing the layer tile by tile gives the same array as computing it whole.

  The three float constants are kept as their bit patterns; both programs use the same words, so their values are
  never needed beyond the zero word's being zero.
-/
import Idealize.ShloMosaic.PureOps.Ideal
import Idealize.ShloMosaic.Lib.ValueIdx

noncomputable section

open scoped BigOperators

namespace Cert.Spec

open Idealize.ShloMosaic Idealize.ShloMosaic.ValueIdx

/-- Node features: 100000 nodes by 128 features. -/
abbrev Snd : Shape := ⟨2, ![100000, 128]⟩
/-- The weight matrix. -/
abbrev Sdd : Shape := ⟨2, ![128, 128]⟩
/-- A per-feature parameter vector. -/
abbrev Sd : Shape := ⟨1, ![128]⟩
/-- The same as a one-row matrix. -/
abbrev S1d : Shape := ⟨2, ![1, 128]⟩

/-- Entry (r, q) of x · w. -/
def denseAt (x : Snd.Idx → EReal) (w : Sdd.Idx → EReal) (r : Fin 100000) (q : Fin 128) : EReal :=
  ∑ k : Fin 128, x (ix2 r k) * w (ix2 k q)

/-- The product x · w as an array. -/
def dense (x : Snd.Idx → EReal) (w : Sdd.Idx → EReal) : Snd.Idx → EReal :=
  fun i => denseAt x w (i 0) (i 1)

theorem dense_apply (x : Snd.Idx → EReal) (w : Sdd.Idx → EReal) (r : Fin 100000) (q : Fin 128) :
    dense x w (ix2 r q) = denseAt x w r q := rfl

/-- The feature count 128, the variance's guard constant and zero, as the float words both programs carry. -/
def c128 : EReal := Ideal.ofBits .f32 0x43000000#32
def ceps : EReal := Ideal.ofBits .f32 0x3727C5AC#32
def czero : EReal := Ideal.ofBits .f32 0x00000000#32

/-- The aggregated feature with its bias. -/
def biased (a : Snd.Idx → EReal) (b : Sd.Idx → EReal) (r : Fin 100000) (q : Fin 128) : EReal :=
  a (ix2 r q) + b (ix1 q)

/-- A node's mean over its 128 features. -/
def rowMean (a : Snd.Idx → EReal) (b : Sd.Idx → EReal) (r : Fin 100000) : EReal :=
  Ideal.div (∑ k : Fin 128, biased a b r k) c128

/-- The deviation from the node's mean. -/
def centred (a : Snd.Idx → EReal) (b : Sd.Idx → EReal) (r : Fin 100000) (q : Fin 128) : EReal :=
  biased a b r q - rowMean a b r

/-- A node's variance over its 128 features. -/
def rowVar (a : Snd.Idx → EReal) (b : Sd.Idx → EReal) (r : Fin 100000) : EReal :=
  Ideal.div (∑ k : Fin 128, centred a b r k * centred a b r k) c128

/-- Entry (r, q) of the normalised, scaled, shifted and clipped layer output. -/
def lnReluAt (a : Snd.Idx → EReal) (b g be : Sd.Idx → EReal) (r : Fin 100000) (q : Fin 128) : EReal :=
  max (centred a b r q * Ideal.rsqrt (rowVar a b r + ceps) * g (ix1 q) + be (ix1 q)) czero

/-- The layer output as an array. -/
def lnRelu (a : Snd.Idx → EReal) (b g be : Sd.Idx → EReal) : Snd.Idx → EReal :=
  fun i => lnReluAt a b g be (i 0) (i 1)

theorem lnRelu_apply (a : Snd.Idx → EReal) (b g be : Sd.Idx → EReal) (r : Fin 100000) (q : Fin 128) :
    lnRelu a b g be (ix2 r q) = lnReluAt a b g be r q := rfl

/-- A one-row matrix read as the vector of its row. -/
def rowOf (v : S1d.Idx → EReal) : Sd.Idx → EReal := fun j => v (ix2 (0 : Fin 1) (j 0))

theorem rowOf_apply (v : S1d.Idx → EReal) (q : Fin 128) : rowOf v (ix1 q) = v (ix2 (0 : Fin 1) q) := rfl

end Cert.Spec

end
-- ==== Proof.RefValue.lean ====
/-
  The reference computes the layer on whole arrays.  Read one entry at a time, its matrix product is the sum over the
  128 input features, and its normalisation tail — bias, the row's mean, the deviation, the row's variance, the
  deviation times the reciprocal square root of the variance plus the guard constant, scale, shift, clipping at zero —
  is the specification's formula applied to the reference's own aggregation array.  The two row sums start from the
  zero word, which is zero, so they are the bare sums; the squared deviation is the deviation times itself; the
  parameter vectors enter through a one-row matrix broadcast down the rows, so entry (r, q) reads the vector at q.
-/
import proofs.«155890_j48661979464167_1_alg».proof.Proof.RefRead
import proofs.«155890_j48661979464167_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.ReadP Idealize.ShloMosaic Idealize.ShloMosaic.ValueIdx Cert.Spec

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))

/-- The reference's matrix product is x · w. -/
theorem ref_dense : val_main_v31 (F := Ideal) x0 x2 = dense x0 x2 := by
  funext i
  obtain ⟨r, q, rfl⟩ : ∃ (r : Fin 100000) (q : Fin 128), i = ix2 r q := ⟨i 0, i 1, eq_ix2 i⟩
  rw [val_main_v31_apply, dense_apply]
  unfold denseAt
  refine Finset.sum_congr rfl fun k _ => ?_
  have el : lidx_main_v31 (ix2 r q) k = ix2 r k :=
    funext fun a => Fin.ext (by match a with | ⟨0, _⟩ => rfl | ⟨1, _⟩ => rfl)
  have er : ridx_main_v31 (ix2 r q) k = ix2 k q :=
    funext fun a => Fin.ext (by match a with | ⟨0, _⟩ => rfl | ⟨1, _⟩ => rfl)
  rw [el, er]

/-- The bias, broadcast down the rows, at entry (r, q) is the bias vector at q. -/
theorem bias_at (r : Fin 100000) (q : Fin 128) : val_main_v46 (F := Ideal) x3 (ix2 r q) = x3 (ix1 q) := by
  rw [val_main_v46_apply, val_main_v45_apply]
  exact congrArg x3 (funext fun a => Fin.ext (by match a with | ⟨0, _⟩ => rfl))

/-- The scale, broadcast down the rows, at entry (r, q) is the scale vector at q. -/
theorem scale_at (r : Fin 100000) (q : Fin 128) : val_main_v67 (F := Ideal) x4 (ix2 r q) = x4 (ix1 q) := by
  rw [val_main_v67_apply, val_main_v66_apply]
  exact congrArg x4 (funext fun a => Fin.ext (by match a with | ⟨0, _⟩ => rfl))

/-- The shift, broadcast down the rows, at entry (r, q) is the shift vector at q. -/
theorem shift_at (r : Fin 100000) (q : Fin 128) : val_main_v70 (F := Ideal) x5 (ix2 r q) = x5 (ix1 q) := by
  rw [val_main_v70_apply, val_main_v69_apply]
  exact congrArg x5 (funext fun a => Fin.ext (by match a with | ⟨0, _⟩ => rfl))

/-- The aggregation plus the bias. -/
theorem biased_at (r : Fin 100000) (q : Fin 128) :
    val_main_v47 (F := Ideal) x0 x1 x2 x3 (ix2 r q) = biased (val_main_v44 (F := Ideal) x0 x1 x2) x3 r q := by
  rw [val_main_v47_apply, bias_at]
  rfl

/-- The row's mean: the row sum from the zero word, over 128. -/
theorem mean_at (r : Fin 100000) (z : Fin 1) :
    val_main_v51 (F := Ideal) x0 x1 x2 x3 (ix2 r z) = rowMean (val_main_v44 (F := Ideal) x0 x1 x2) x3 r := by
  rw [val_main_v51_apply, val_main_v49_apply, val_main_v48_apply, val_main_v50_apply, val_main_cst_10_apply,
    val_main_cst_9_apply]
  have hs : ∀ k : Fin 128, val_main_v47 (F := Ideal) x0 x1 x2 x3 (idx_main_v48 (idx_main_v49 (ix2 r z)) k)
      = biased (val_main_v44 (F := Ideal) x0 x1 x2) x3 r k := fun k => by
    have e : idx_main_v48 (idx_main_v49 (ix2 r z)) k = ix2 r k :=
      funext fun a => Fin.ext (by match a with | ⟨0, _⟩ => rfl | ⟨1, _⟩ => rfl)
    rw [e]
    exact biased_at x0 x1 x2 x3 r k
  simp only [hs, Ideal.hostDivf_def, Ideal.ofBits_def, Ideal.ofBits_zero_f32, zero_add]
  rfl

/-- The deviation from the row's mean, as the variance reads it. -/
theorem centred_at (r : Fin 100000) (q : Fin 128) :
    val_main_v53 (F := Ideal) x0 x1 x2 x3 (ix2 r q) = centred (val_main_v44 (F := Ideal) x0 x1 x2) x3 r q := by
  rw [val_main_v53_apply, val_main_v52_apply, biased_at]
  have e : idx_main_v52 (ix2 r q) = ix2 r (0 : Fin 1) :=
    funext fun a => Fin.ext (by match a with | ⟨0, _⟩ => rfl | ⟨1, _⟩ => rfl)
  rw [e, mean_at]
  rfl

/-- The same deviation, as the normalised value reads it. -/
theorem centred_at' (r : Fin 100000) (q : Fin 128) :
    val_main_v60 (F := Ideal) x0 x1 x2 x3 (ix2 r q) = centred (val_main_v44 (F := Ideal) x0 x1 x2) x3 r q := by
  rw [val_main_v60_apply, val_main_v59_apply, biased_at]
  have e : idx_main_v59 (ix2 r q) = ix2 r (0 : Fin 1) :=
    funext fun a => Fin.ext (by match a with | ⟨0, _⟩ => rfl | ⟨1, _⟩ => rfl)
  rw [e, mean_at]
  rfl

/-- The row's variance: the sum of squared deviations from the zero word, over 128. -/
theorem var_at (r : Fin 100000) (z : Fin 1) :
    val_main_v58 (F := Ideal) x0 x1 x2 x3 (ix2 r z) = rowVar (val_main_v44 (F := Ideal) x0 x1 x2) x3 r := by
  rw [val_main_v58_apply, val_main_v56_apply, val_main_v55_apply, val_main_v57_apply, val_main_cst_12_apply,
    val_main_cst_11_apply]
  have hs : ∀ k : Fin 128, val_main_v54 (F := Ideal) x0 x1 x2 x3 (idx_main_v55 (idx_main_v56 (ix2 r z)) k)
      = centred (val_main_v44 (F := Ideal) x0 x1 x2) x3 r k * centred (val_main_v44 (F := Ideal) x0 x1 x2) x3 r k := fun k => by
    have e : idx_main_v55 (idx_main_v56 (ix2 r z)) k = ix2 r k :=
      funext fun a => Fin.ext (by match a with | ⟨0, _⟩ => rfl | ⟨1, _⟩ => rfl)
    rw [e, val_main_v54_apply, centred_at]
    rfl
  simp only [hs, Ideal.hostDivf_def, Ideal.ofBits_def, Ideal.ofBits_zero_f32, zero_add]
  rfl

/-- The reference's result is the layer output of its own aggregation array and the three parameter vectors. -/
theorem ref_ln :
    val_main_v72 (F := Ideal) x0 x1 x2 x3 x4 x5 = lnRelu (val_main_v44 (F := Ideal) x0 x1 x2) x3 x4 x5 := by
  funext i
  obtain ⟨r, q, rfl⟩ : ∃ (r : Fin 100000) (q : Fin 128), i = ix2 r q := ⟨i 0, i 1, eq_ix2 i⟩
  rw [val_main_v72_apply, val_main_v71_apply, val_main_v68_apply, val_main_v65_apply, val_main_v64_apply,
    val_main_v63_apply, val_main_v62_apply, val_main_v61_apply, val_main_cst_13_apply, val_main_call1_v0_apply,
    val_main_call1_cst_apply, scale_at, shift_at, centred_at']
  have e : idx_main_v64 (ix2 r q) = ix2 r (0 : Fin 1) :=
    funext fun a => Fin.ext (by match a with | ⟨0, _⟩ => rfl | ⟨1, _⟩ => rfl)
  rw [e, var_at, lnRelu_apply]
  rfl

end Cert.ReferenceIdeal.RefValue

end
-- ==== Proof.DenseValue.lean ====
/-
  The first tiled stage computes the node-feature transform: grid point t takes rows 5000·t … 5000·t + 4999 of x and
  the whole weight matrix, and writes the same rows of h = x · w.  Twenty tiles cover the 100000 rows, so after the
  stage the result array holds x · w.

  The argument, in order.  Inside a tile, entry (p, q) of the product of the tile's rows with the weights is the sum
  over the 128 features k of (tile row p, feature k) times (weight k, q): the narrowing of both operands is the
  identity over the extended reals, the accumulator is the zero array, and the contraction's one axis is re-indexed by
  k.  Tile t's row p is row 5000·t + p of x, and the weight block is the whole of w, so what tile t writes is rows
  5000·t … 5000·t + 4999 of x · w.  Row r lies in tile r / 5000, every tile is written back, hence every entry of the
  result array is the corresponding entry of x · w.
-/
import proofs.«155890_j48661979464167_1_alg».proof.Proof.Gen.KernelIdeal.Frame
import proofs.«155890_j48661979464167_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.DenseValue

open Cert.KernelIdeal Cert.KernelIdeal.Gen Idealize.ShloMosaic Idealize.ShloMosaic.TcCoe Idealize.SL.Sem
open Idealize.ShloMosaic.ValueIdx
open Idealize.ShloMosaic.Pipeline (Dat)

/-! ## One tile's product, entry by entry -/

/-- The tile's loads and its store start at the origin of their buffers. -/
theorem off_zero : (![0, 0] : Fin 2 → Nat) = fun _ => 0 := funext fun a => by fin_cases a <;> rfl

/-- The left operand is read at the output's row … -/
theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … and at the contracted feature; -/
theorem lhs_contr (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- the right operand at the contracted feature … -/
theorem rhs_contr (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- … and at the output's column. -/
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (p, q) of what a tile stores is the sum over the 128 features k of x0[p, k] · x1[k, q]: narrowing changes
    no extended real, the accumulator is zero, and the contraction has the one axis k. -/
theorem tile_product_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  show FloatOps.matmul dot_S5000x128_S128x128_S5000x128_1_0_0_1_n_n none _ _ (constant S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_contr _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_contr _ _).trans hk
      | ⟨1, _⟩ => exact rhs_col _ _)
  rw [el, er]
  rfl

/-! ## The tiles' blocks in their arrays -/

variable (V : (c : Dev nD) → (b : Ref sig .tc) → Buf (Elt Ideal) ((c : Thread nD τ).loc b))

/-- Where the blocks sit: at tile t the block of x and the block of the result are both block row t, column block 0;
    the block of w is always block (0, 0). -/
theorem tile_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Tile t's block of x at (p, k) is x at (5000·t + p, k). -/
theorem x_tile_apply (c : Dev nD) (t : Fin cfg0.N) (p : Fin 5000) (k : Fin 128) (r : Fin 100000)
    (hr : r.val = 5000 * t.val + p.val) :
    (iblk0 V c 0 t : Vec Ideal S5000x128 .f32) (ix2 p k) = (V c main_arg0 : S100000x128.Idx → EReal) (ix2 r k) := by
  obtain ⟨e0, e1, -, -, -, -⟩ := tile_index t
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Every tile's block of w is w itself. -/
theorem w_tile_apply (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e2, e3, -, -⟩ := tile_index t
  show V c main_arg2 (((cfg0.win 1).blk t).view.emb (ix2 k q)) = V c main_arg2 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What tile t writes back is rows 5000·t … 5000·t + 4999 of x · w: entry (p, q) of the tile's product is the sum
    over k of x[5000·t + p, k] · w[k, q], which is entry (5000·t + p, q) of x · w. -/
theorem flushed_eq (c : Dev nD) (t : Fin cfg0.N) :
    (dat0 (F := Ideal) V c).flushed 2 t
      = ((cfg0.win 2).blk t).view.read (Elt Ideal) (Cert.Spec.dense (V c main_arg0) (V c main_arg2)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x128) off_zero]
  funext j
  obtain ⟨p, q, rfl⟩ : ∃ (p : Fin 5000) (q : Fin 128), j = ix2 p q := ⟨j 0, j 1, eq_ix2 j⟩
  have hN : grid0.N = 20 := N_0
  have ht : t.val < 20 := hN ▸ t.isLt
  obtain ⟨-, -, -, -, e4, e5⟩ := tile_index t
  let r : Fin 100000 := ⟨5000 * t.val + p.val, by have := p.isLt; omega⟩
  have hi : (((cfg0.win 2).blk t).view.emb (ix2 p q) : S100000x128.Idx) = ix2 r q := funext fun a => Fin.ext (by
    match a with
    | ⟨0, _⟩ => show win0_2.index t (0 : Fin 2) * 5000 + 1 * p.val = 5000 * t.val + p.val; omega
    | ⟨1, _⟩ => show win0_2.index t (1 : Fin 2) * 128 + 1 * q.val = q.val; omega)
  show k0_pay1 (iblk0 V c 0 t) (iblk0 V c 1 t) (ix2 p q)
    = Cert.Spec.dense (V c main_arg0) (V c main_arg2) (((cfg0.win 2).blk t).view.emb (ix2 p q))
  rw [hi, Cert.Spec.dense_apply, tile_product_apply]
  unfold Cert.Spec.denseAt
  refine Finset.sum_congr rfl fun k _ => ?_
  rw [x_tile_apply V c t p k r rfl, w_tile_apply V c t k q]

/-! ## The twenty tiles cover the array -/

/-- An entry of the result array is in tile t's block iff, on each axis, its coordinate is within the block's extent
    from the block's offset. -/
theorem mem_tile (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v31).slice (win0_2.rect t)).set ↔ _
  rw [View.set_slice_whole, Rect.mem_set_unit]
  exact Iff.rfl

/-- Row r of the result is written by tile r / 5000, and every tile is written back. -/
theorem tiles_cover (i : S100000x128.Idx) :
    ∃ t : Fin cfg0.N, (cfg0.win 2).flush t = true ∧ i ∈ ((cfg0.win 2).blk t).view.set := by
  have hN : grid0.N = 20 := N_0
  have hi0 : (i 0).val < 100000 := (i 0).isLt
  have hi1 : (i 1).val < 128 := (i 1).isLt
  let t : Fin cfg0.N := ⟨(i 0).val / 5000, by show (i 0).val / 5000 < grid0.N; omega⟩
  obtain ⟨-, -, -, -, e4, e5⟩ := tile_index t
  have e4' : win0_2.index t (0 : Fin 2) = (i 0).val / 5000 := e4
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the twenty tiles the stage's result array is x · w of the arrays the stage was entered with. -/
theorem dense_final (c : Dev nD) :
    (dat0 (F := Ideal) V c).arrAt 2 cfg0.N = Cert.Spec.dense (V c main_arg0) (V c main_arg2) :=
  (dat0 V c).arrAt_eq_of_cover 2 (Cert.Spec.dense (V c main_arg0) (V c main_arg2)) (fun t _ => flushed_eq V c t) tiles_cover

end Cert.KernelIdeal.DenseValue

end
-- ==== Proof.LnValue.lean ====
/-
  The second tiled stage normalises the aggregated features: grid point t takes rows 5000·t … 5000·t + 4999 of the
  aggregation and the three one-row parameter blocks, and writes the same rows of the layer output.  Each row is
  normalised alone, so the twenty tiles together leave the whole layer output in the result array.

  The argument.  Read at row p and feature q of a block, the tile's computation is: the entry plus the bias, minus the
  row's mean (the row's sum over the 128 features divided by 128), times the reciprocal square root of the row's
  variance (the sum of the squared deviations divided by 128) plus the guard constant, times the scale, plus the
  shift, clipped below at zero.  Only row p of the block and the parameter rows enter, and row p of block t is row
  5000·t + p of the aggregation, so the value is the layer output at row 5000·t + p and feature q: point t writes
  back block t of the layer output.  Row r of the result lies in block r / 5000, so the twenty blocks cover it.
-/
import proofs.«155890_j48661979464167_1_alg».proof.Proof.Gen.KernelIdeal.Frame
import proofs.«155890_j48661979464167_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.LnValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Layout operations of the row statistics, read at coordinates -/

/-- A vector of `a` entries cast to a column `[a, 1]` reads, at `(i, u)`, the entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the 128 features of a block, at row `p`. -/
theorem rowSum_apply (v : FVec Ideal S5000x128 .f32) (p : Fin 5000) :
    multiReduction (F := Ideal) .add [1] S5000 v 0x00000000#32 reduces_S5000x128_S5000 (.inl rfl) rfl (ix1 p)
      = ∑ k : Fin 128, v (ix2 p k) := by
  refine (Ideal.multiReduction_add_single v _ reduces_S5000x128_S5000 (.inl rfl) rfl (ix1 p)).trans ?_
  refine Finset.sum_congr rfl fun k _ => congrArg v (funext fun c => Fin.ext ?_)
  match c with
  | ⟨0, _⟩ => rfl
  | ⟨1, _⟩ => rfl

/-! ## The block's row statistics -/

/-- A block's entry with its bias. -/
def bBiased (x0 : Vec Ideal S5000x128 .f32) (b : Vec Ideal S1x128 .f32) (p : Fin 5000) (q : Fin 128) : EReal :=
  x0 (ix2 p q) + b (ix2 (0 : Fin 1) q)

/-- A block row's mean over its 128 features. -/
def bMean (x0 : Vec Ideal S5000x128 .f32) (b : Vec Ideal S1x128 .f32) (p : Fin 5000) : EReal :=
  Ideal.div (∑ k : Fin 128, bBiased x0 b p k) Cert.Spec.c128

/-- The deviation from the row's mean. -/
def bCentred (x0 : Vec Ideal S5000x128 .f32) (b : Vec Ideal S1x128 .f32) (p : Fin 5000) (q : Fin 128) : EReal :=
  bBiased x0 b p q - bMean x0 b p

/-- A block row's variance over its 128 features. -/
def bVar (x0 : Vec Ideal S5000x128 .f32) (b : Vec Ideal S1x128 .f32) (p : Fin 5000) : EReal :=
  Ideal.div (∑ k : Fin 128, bCentred x0 b p k * bCentred x0 b p k) Cert.Spec.c128

/-- The block's normalised, scaled, shifted and clipped entry. -/
def bOut (x0 : Vec Ideal S5000x128 .f32) (b g be : Vec Ideal S1x128 .f32) (p : Fin 5000) (q : Fin 128) : EReal :=
  max (bCentred x0 b p q * Ideal.rsqrt (bVar x0 b p + Cert.Spec.ceps) * g (ix2 (0 : Fin 1) q) + be (ix2 (0 : Fin 1) q))
    Cert.Spec.czero

/-! ## The payload's intermediate vectors -/

/-- The block with the bias row added to every row. -/
def vBiased (x0 : Vec Ideal S5000x128 .f32) (b : Vec Ideal S1x128 .f32) : FVec Ideal S5000x128 .f32 :=
  addf (shapeCast S5000x128 x0 shapeCasts_S5000x128_S5000x128)
    (broadcastTo S5000x128 (shapeCast S1x128 b shapeCasts_S1x128_S1x128) broadcasts_S1x128_S5000x128)

/-- The column of the rows' sums divided by the feature count. -/
def colAvg (v : FVec Ideal S5000x128 .f32) : FVec Ideal S5000x1 .f32 :=
  divf (shapeCast S5000x1 (multiReduction (F := Ideal) .add [1] S5000 v 0x00000000#32 reduces_S5000x128_S5000 (.inl rfl) rfl)
      shapeCasts_S5000_S5000x1)
    (broadcast S5000x1 (Scalar.ofBits .f32 0x43000000#32))

/-- The block of deviations from the rows' means. -/
def vCentred (x0 : Vec Ideal S5000x128 .f32) (b : Vec Ideal S1x128 .f32) : FVec Ideal S5000x128 .f32 :=
  subf (vBiased x0 b) (broadcastTo S5000x128 (colAvg (vBiased x0 b)) broadcasts_S5000x1_S5000x128)

/-- The payload as a term of those vectors. -/
theorem pay_eq (x0 : Vec Ideal S5000x128 .f32) (b g be : Vec Ideal S1x128 .f32) :
    k1_pay1 x0 b g be
      = maximumf
          (addf
            (mulf
              (mulf (vCentred x0 b)
                (broadcastTo S5000x128
                  (rsqrt (addf (colAvg (mulf (vCentred x0 b) (vCentred x0 b)))
                    (broadcast S5000x1 (Scalar.ofBits .f32 0x3727C5AC#32))))
                  broadcasts_S5000x1_S5000x128))
              (broadcastTo S5000x128 (shapeCast S1x128 g shapeCasts_S1x128_S1x128) broadcasts_S1x128_S5000x128))
            (broadcastTo S5000x128 (shapeCast S1x128 be shapeCasts_S1x128_S1x128) broadcasts_S1x128_S5000x128))
          (broadcast S5000x128 (Scalar.ofBits .f32 0x00000000#32)) := rfl

theorem vBiased_apply (x0 : Vec Ideal S5000x128 .f32) (b : Vec Ideal S1x128 .f32) (p : Fin 5000) (q : Fin 128) :
    vBiased x0 b (ix2 p q) = bBiased x0 b p q := by
  unfold vBiased
  rw [shapeCast_self, shapeCast_self]
  exact congrArg (x0 (ix2 p q) + ·) (broadcastTo_1b_ab_apply b _ p q)

theorem colAvg_apply (v : FVec Ideal S5000x128 .f32) (p : Fin 5000) (u : Fin 1) :
    colAvg v (ix2 p u) = Ideal.div (∑ k : Fin 128, v (ix2 p k)) Cert.Spec.c128 := by
  show Ideal.div (shapeCast S5000x1 _ shapeCasts_S5000_S5000x1 (ix2 p u)) Cert.Spec.c128 = _
  rw [shapeCast_a_a1_apply, rowSum_apply]

theorem vCentred_apply (x0 : Vec Ideal S5000x128 .f32) (b : Vec Ideal S1x128 .f32) (p : Fin 5000) (q : Fin 128) :
    vCentred x0 b (ix2 p q) = bCentred x0 b p q := by
  show vBiased x0 b (ix2 p q) - broadcastTo S5000x128 (colAvg (vBiased x0 b)) broadcasts_S5000x1_S5000x128 (ix2 p q) = _
  rw [vBiased_apply, broadcastTo_a1_ab_apply, colAvg_apply]
  simp only [vBiased_apply]
  rfl

/-- THE PAYLOAD AT ROW `p`, FEATURE `q` of the block: the row's normalised entry, scaled, shifted and clipped. -/
theorem pay_apply (x0 : Vec Ideal S5000x128 .f32) (b g be : Vec Ideal S1x128 .f32) (p : Fin 5000) (q : Fin 128) :
    k1_pay1 x0 b g be (ix2 p q) = bOut x0 b g be p q := by
  rw [pay_eq]
  show max (vCentred x0 b (ix2 p q)
        * broadcastTo S5000x128 (rsqrt (addf (colAvg (mulf (vCentred x0 b) (vCentred x0 b)))
            (broadcast S5000x1 (Scalar.ofBits .f32 0x3727C5AC#32)))) broadcasts_S5000x1_S5000x128 (ix2 p q)
        * broadcastTo S5000x128 (shapeCast S1x128 g shapeCasts_S1x128_S1x128) broadcasts_S1x128_S5000x128 (ix2 p q)
        + broadcastTo S5000x128 (shapeCast S1x128 be shapeCasts_S1x128_S1x128) broadcasts_S1x128_S5000x128 (ix2 p q))
      Cert.Spec.czero = _
  rw [vCentred_apply, broadcastTo_a1_ab_apply, shapeCast_self, shapeCast_self, broadcastTo_1b_ab_apply,
    broadcastTo_1b_ab_apply]
  show max (bCentred x0 b p q
        * Ideal.rsqrt (colAvg (mulf (vCentred x0 b) (vCentred x0 b)) (ix2 p (0 : Fin 1)) + Cert.Spec.ceps)
        * g (ix2 (0 : Fin 1) q) + be (ix2 (0 : Fin 1) q)) Cert.Spec.czero = _
  rw [colAvg_apply]
  simp only [mulf_apply, vCentred_apply]
  rfl

/-! ## A block row against the array's row -/

/-- A block row whose biased entries are those of row `r` of the arrays has row `r`'s layer output. -/
theorem bOut_eq_spec (A : Vec Ideal S100000x128 .f32) (B G BE : Vec Ideal S1x128 .f32)
    (x0 : Vec Ideal S5000x128 .f32) (b g be : Vec Ideal S1x128 .f32) (r : Fin 100000) (p : Fin 5000)
    (hx : ∀ k : Fin 128, x0 (ix2 p k) = A (ix2 r k)) (hb : ∀ k : Fin 128, b (ix2 (0 : Fin 1) k) = B (ix2 (0 : Fin 1) k))
    (hg : ∀ k : Fin 128, g (ix2 (0 : Fin 1) k) = G (ix2 (0 : Fin 1) k))
    (hbe : ∀ k : Fin 128, be (ix2 (0 : Fin 1) k) = BE (ix2 (0 : Fin 1) k)) (q : Fin 128) :
    bOut x0 b g be p q
      = Cert.Spec.lnReluAt A (Cert.Spec.rowOf B) (Cert.Spec.rowOf G) (Cert.Spec.rowOf BE) r q := by
  have h1 : ∀ k : Fin 128, bBiased x0 b p k = Cert.Spec.biased A (Cert.Spec.rowOf B) r k := fun k => by
    unfold bBiased Cert.Spec.biased
    rw [hx k, hb k, Cert.Spec.rowOf_apply]
  have h2 : bMean x0 b p = Cert.Spec.rowMean A (Cert.Spec.rowOf B) r := by
    unfold bMean Cert.Spec.rowMean
    rw [Finset.sum_congr rfl fun k _ => h1 k]
  have h3 : ∀ k : Fin 128, bCentred x0 b p k = Cert.Spec.centred A (Cert.Spec.rowOf B) r k := fun k => by
    unfold bCentred Cert.Spec.centred
    rw [h1 k, h2]
  have h4 : bVar x0 b p = Cert.Spec.rowVar A (Cert.Spec.rowOf B) r := by
    unfold bVar Cert.Spec.rowVar
    rw [Finset.sum_congr rfl fun k _ => by rw [h3 k]]
  unfold bOut Cert.Spec.lnReluAt
  rw [h3 q, h4, hg q, hbe q, Cert.Spec.rowOf_apply, Cert.Spec.rowOf_apply]

/-! ## The windows' blocks as rows of their arrays -/

theorem hz : (![0, 0] : Fin 2 → Nat) = fun _ => 0 := funext fun a => by fin_cases a <;> rfl

/-- The index maps over the grid: the aggregation's and the result's row block at point `t` is block `t`, every
    other block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of the aggregation's block at point `t` is row `5000·t + p` of the aggregation. -/
theorem blk0_read (c : Dev nD) (t : Fin cfg1.N) (p : Fin 5000) (k : Fin 128) (r : Fin 100000)
    (hr : r.val = t.val * 5000 + p.val) :
    (iblk1 V c 0 t : Vec Ideal S5000x128 .f32) (ix2 p k) = (V c main_v44 : Vec Ideal S100000x128 .f32) (ix2 r k) := by
  obtain ⟨e0, e1, -⟩ := idx_facts t
  unfold iblk1
  rw [View.read_apply]
  show V c main_v44 _ = V c main_v44 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The bias block at any point is the bias row. -/
theorem blk1_read (c : Dev nD) (t : Fin cfg1.N) (k : Fin 128) :
    (iblk1 V c 1 t : Vec Ideal S1x128 .f32) (ix2 (0 : Fin 1) k) = (V c main_v45 : Vec Ideal S1x128 .f32) (ix2 (0 : Fin 1) k) := by
  obtain ⟨-, -, e0, e1, -⟩ := idx_facts t
  unfold iblk1
  rw [View.read_apply]
  show V c main_v45 _ = V c main_v45 _
  congr 1
  funext a
  apply Fin.ext
  match a with
  | ⟨0, _⟩ => show win1_1.index t (0 : Fin 2) * 1 + 1 * 0 = 0; rw [e0]
  | ⟨1, _⟩ => show win1_1.index t (1 : Fin 2) * 128 + 1 * k.val = k.val; rw [e1]; omega

/-- The scale block at any point is the scale row. -/
theorem blk2_read (c : Dev nD) (t : Fin cfg1.N) (k : Fin 128) :
    (iblk1 V c 2 t : Vec Ideal S1x128 .f32) (ix2 (0 : Fin 1) k) = (V c main_v46 : Vec Ideal S1x128 .f32) (ix2 (0 : Fin 1) k) := by
  obtain ⟨-, -, -, -, e0, e1, -⟩ := idx_facts t
  unfold iblk1
  rw [View.read_apply]
  show V c main_v46 _ = V c main_v46 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * k.val = k.val; rw [e1]; omega

/-- The shift block at any point is the shift row. -/
theorem blk3_read (c : Dev nD) (t : Fin cfg1.N) (k : Fin 128) :
    (iblk1 V c 3 t : Vec Ideal S1x128 .f32) (ix2 (0 : Fin 1) k) = (V c main_v47 : Vec Ideal S1x128 .f32) (ix2 (0 : Fin 1) k) := by
  obtain ⟨-, -, -, -, -, -, e0, e1, -⟩ := idx_facts t
  unfold iblk1
  rw [View.read_apply]
  show V c main_v47 _ = V c main_v47 _
  congr 1
  funext a
  apply Fin.ext
  match a with
  | ⟨0, _⟩ => show win1_3.index t (0 : Fin 2) * 1 + 1 * 0 = 0; rw [e0]
  | ⟨1, _⟩ => show win1_3.index t (1 : Fin 2) * 128 + 1 * k.val = k.val; rw [e1]; omega

/-! ## What a point writes back -/

/-- WHAT POINT `t` WRITES BACK is block `t` of the layer output of the arrays the stage was entered with. -/
theorem flushed_eq (c : Dev nD) (t : Fin cfg1.N) :
    (dat1 (F := Ideal) V c).flushed 4 t
      = ((cfg1.win 4).blk t).view.read (Elt Ideal)
          (Cert.Spec.lnRelu (V c main_v44) (Cert.Spec.rowOf (V c main_v45)) (Cert.Spec.rowOf (V c main_v46))
            (Cert.Spec.rowOf (V c main_v47))) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  obtain ⟨-, -, -, -, -, -, -, -, e0, e1⟩ := idx_facts t
  have hN : t.val < 20 := Nat.lt_of_lt_of_eq t.isLt (show cfg1.N = 20 from N_1)
  funext j
  obtain ⟨p, q, rfl⟩ : ∃ (p : Fin 5000) (q : Fin 128), j = ix2 p q := ⟨j 0, j 1, eq_ix2 j⟩
  have hr : ((cfg1.win 4).blk t).view.emb (ix2 p q)
      = (ix2 (⟨t.val * 5000 + p.val, by have := p.isLt; omega⟩ : Fin 100000) q : S100000x128.Idx) := by
    funext a
    apply Fin.ext
    match a with
    | ⟨0, _⟩ => show win1_4.index t (0 : Fin 2) * 5000 + 1 * p.val = t.val * 5000 + p.val; rw [e0]; omega
    | ⟨1, _⟩ => show win1_4.index t (1 : Fin 2) * 128 + 1 * q.val = q.val; rw [e1]; omega
  show k1_pay1 (iblk1 V c 0 t) (iblk1 V c 1 t) (iblk1 V c 2 t) (iblk1 V c 3 t) (ix2 p q)
    = Cert.Spec.lnRelu (V c main_v44) (Cert.Spec.rowOf (V c main_v45)) (Cert.Spec.rowOf (V c main_v46))
        (Cert.Spec.rowOf (V c main_v47)) (((cfg1.win 4).blk t).view.emb (ix2 p q))
  rw [hr, Cert.Spec.lnRelu_apply, pay_apply]
  exact bOut_eq_spec _ _ _ _ _ _ _ _ _ p (fun k => blk0_read V c t p k _ rfl) (fun k => blk1_read V c t k)
    (fun k => blk2_read V c t k) (fun k => blk3_read V c t k) q

/-! ## The blocks cover the result array -/

/-- An index of the result array is in point `t`'s block iff each coordinate is in the block's range on its axis. -/
theorem mem_blk (t : Fin cfg1.N) (i : S100000x128.Idx) :
    i ∈ ((cfg1.win 4).blk t).view.set
      ↔ ∀ a : Fin 2, win1_4.index t a * S5000x128.size a ≤ (i a).val
          ∧ (i a).val < win1_4.index t a * S5000x128.size a + S5000x128.size a := by
  show i ∈ ((View.whole main_v48).slice (win1_4.rect t)).set ↔ _
  rw [View.set_slice_whole, Rect.mem_set_unit]
  exact Iff.rfl

/-- Row `r` of the result lies in the block of point `r / 5000`, which is written back. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, e0, e1⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e1]
    omega

/-- After the twenty tiles the stage's result array is the normalised layer output of the arrays the stage was
    entered with: the aggregation and the bias, scale and shift rows. -/
theorem ln_final (c : Dev nD) :
    (dat1 (F := Ideal) V c).arrAt 4 cfg1.N
      = Cert.Spec.lnRelu (V c main_v44) (Cert.Spec.rowOf (V c main_v45)) (Cert.Spec.rowOf (V c main_v46)) (Cert.Spec.rowOf (V c main_v47)) :=
  (dat1 V c).arrAt_eq_of_cover 4 _ (fun t _ => flushed_eq V c t) cover

end Cert.KernelIdeal.LnValue

end
-- ==== Proof.HostChain.lean ====
/-
  Between its two tiled stages the kernel program runs, on the host, the same graph bookkeeping as the reference:
  the source and target node lists with a self-loop appended for every node, the in-degree count, the
  symmetric normalisation 1/sqrt(deg[source]) · 1/sqrt(deg[target]) per edge, the gather of the transformed features
  of each edge's source, their scaling by the edge's normalisation, and the scatter-add into the target nodes.  None
  of these operations is opened here.  Each buffer they fill is read back, through the fold of host operations and
  tiled stages that leads to it, as the very function of the edge list the reference's program applies; so once
  the first stage's result is known to be the reference's matrix product, the aggregation the second stage is entered
  with is the reference's aggregation, and the three one-row parameter blocks are the parameter vectors reshaped.
-/
import proofs.«155890_j48661979464167_1_alg».proof.Proof.Gen.KernelIdeal.Frame
import proofs.«155890_j48661979464167_1_alg».proof.Proof.RefRead
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem
open Idealize.ShloMosaic.StableHlo
open Cert.ReferenceIdeal.ReadP

variable {F : FTy → Type} [FloatOps F]
variable (m : (ℓ : Loc nD τ sig) → Buf (Elt F) ℓ) (ρ : Dev nD → PrngReg)

/-- The source node of every edge, self-loops appended: untouched by the first stage, it is the reference's list. -/
theorem src_nodes (c : Dev nD) :
    W4 m ρ c (Proc.devRef .tc main_v3) = val_main_v3 (F := F) (m ((c.tc : Thread nD τ).loc main_arg1)) := by
  rw [W4_of_ne m ρ c main_v3 (by decide)]
  show after hostOps0_2 (after hostOps0_1 (after hostOps0 (W0 m ρ c))) (Proc.devRef .tc main_v3) = _
  after_results
  rfl

/-- The target node of every edge, self-loops appended. -/
theorem tgt_nodes (c : Dev nD) :
    W4 m ρ c (Proc.devRef .tc main_v6) = val_main_v6 (F := F) (m ((c.tc : Thread nD τ).loc main_arg1)) := by
  rw [W4_of_ne m ρ c main_v6 (by decide)]
  show after hostOps0_2 (after hostOps0_1 (after hostOps0 (W0 m ρ c))) (Proc.devRef .tc main_v6) = _
  after_results
  rfl

/-- The normalisation of every edge. -/
theorem edge_norm (c : Dev nD) :
    W4 m ρ c (Proc.devRef .tc main_v30) = val_main_v30 (F := F) (m ((c.tc : Thread nD τ).loc main_arg1)) := by
  rw [W4_of_ne m ρ c main_v30 (by decide)]
  show after hostOps0_2 (after hostOps0_1 (after hostOps0 (W0 m ρ c))) (Proc.devRef .tc main_v30) = _
  after_results_simp
  all_goals (try simp only [TRef.ofBuf, TRef.toBuf, cast_eq])
  all_goals rfl

/-- From ANY buffer contents in which the first stage's result is the reference's matrix product and the edge lists
    and the normalisation are the reference's, the gather, the scaling and the scatter-add between the stages leave the
    reference's aggregation. -/
theorem aggregation_of (W : Valuation τ sig (Elt F))
    (x0 : (⟨Cert.ReferenceIdeal.S100000x128, .f32⟩ : BufTy).Contents (Elt F))
    (x1 : (⟨Cert.ReferenceIdeal.S2x1600000, .i32⟩ : BufTy).Contents (Elt F))
    (x2 : (⟨Cert.ReferenceIdeal.S128x128, .f32⟩ : BufTy).Contents (Elt F))
    (hd : W (Proc.devRef .tc main_v31) = val_main_v31 (F := F) x0 x2)
    (h3 : W (Proc.devRef .tc main_v3) = val_main_v3 (F := F) x1)
    (h6 : W (Proc.devRef .tc main_v6) = val_main_v6 (F := F) x1)
    (h30 : W (Proc.devRef .tc main_v30) = val_main_v30 (F := F) x1) :
    after hostOps1 W (Proc.devRef .tc main_v44) = val_main_v44 (F := F) x0 x1 x2 := by
  after_results_simp
  rw [hd, h3, h6, h30]
  rfl

/-- The aggregation the second stage is entered with: once the first stage's result is the reference's matrix product
    of the launched features and weights, it is the reference's aggregation. -/
theorem aggregation (c : Dev nD)
    (hd : W4 m ρ c (Proc.devRef .tc main_v31)
      = val_main_v31 (F := F) (m ((c.tc : Thread nD τ).loc main_arg0)) (m ((c.tc : Thread nD τ).loc main_arg2))) :
    V5 m ρ c main_v44
      = val_main_v44 (F := F) (m ((c.tc : Thread nD τ).loc main_arg0)) (m ((c.tc : Thread nD τ).loc main_arg1))
          (m ((c.tc : Thread nD τ).loc main_arg2)) :=
  aggregation_of (W4 m ρ c) _ _ _ hd (src_nodes m ρ c) (tgt_nodes m ρ c) (edge_norm m ρ c)

/-- A parameter vector is untouched by everything before the second stage. -/
theorem bias_kept (c : Dev nD) :
    W4 m ρ c (Proc.devRef .tc main_arg3) = m ((c.tc : Thread nD τ).loc main_arg3) := by
  rw [W4_of_ne m ρ c main_arg3 (by decide)]
  show after hostOps0_2 (after hostOps0_1 (after hostOps0 (W0 m ρ c))) (Proc.devRef .tc main_arg3) = _
  after_results

theorem scale_kept (c : Dev nD) :
    W4 m ρ c (Proc.devRef .tc main_arg4) = m ((c.tc : Thread nD τ).loc main_arg4) := by
  rw [W4_of_ne m ρ c main_arg4 (by decide)]
  show after hostOps0_2 (after hostOps0_1 (after hostOps0 (W0 m ρ c))) (Proc.devRef .tc main_arg4) = _
  after_results

theorem shift_kept (c : Dev nD) :
    W4 m ρ c (Proc.devRef .tc main_arg5) = m ((c.tc : Thread nD τ).loc main_arg5) := by
  rw [W4_of_ne m ρ c main_arg5 (by decide)]
  show after hostOps0_2 (after hostOps0_1 (after hostOps0 (W0 m ρ c))) (Proc.devRef .tc main_arg5) = _
  after_results

/-- The bias row block is the bias vector reshaped to one row. -/
theorem bias_row (c : Dev nD) :
    V5 m ρ c main_v45 = shapeCast S1x128 (m ((c.tc : Thread nD τ).loc main_arg3)) shapeCasts_S128_S1x128 := by
  show after hostOps1 (W4 m ρ c) (Proc.devRef .tc main_v45) = _
  have hk := bias_kept m ρ c
  generalize W4 m ρ c = W at hk ⊢
  after_results
  rw [hk]
  rfl

/-- The scale row block is the scale vector reshaped to one row. -/
theorem scale_row (c : Dev nD) :
    V5 m ρ c main_v46 = shapeCast S1x128 (m ((c.tc : Thread nD τ).loc main_arg4)) shapeCasts_S128_S1x128 := by
  show after hostOps1 (W4 m ρ c) (Proc.devRef .tc main_v46) = _
  have hk := scale_kept m ρ c
  generalize W4 m ρ c = W at hk ⊢
  after_results
  rw [hk]
  rfl

/-- The shift row block is the shift vector reshaped to one row. -/
theorem shift_row (c : Dev nD) :
    V5 m ρ c main_v47 = shapeCast S1x128 (m ((c.tc : Thread nD τ).loc main_arg5)) shapeCasts_S128_S1x128 := by
  show after hostOps1 (W4 m ρ c) (Proc.devRef .tc main_v47) = _
  have hk := shift_kept m ρ c
  generalize W4 m ρ c = W at hk ⊢
  after_results
  rw [hk]
  rfl

/-- The features and the weights the first stage is entered with are the launched ones. -/
theorem features_kept (c : Dev nD) : V3 m ρ c main_arg0 = m ((c.tc : Thread nD τ).loc main_arg0) := by
  show after hostOps0_2 (after hostOps0_1 (after hostOps0 (W0 m ρ c))) (Proc.devRef .tc main_arg0) = _
  after_results

theorem weights_kept (c : Dev nD) : V3 m ρ c main_arg2 = m ((c.tc : Thread nD τ).loc main_arg2) := by
  show after hostOps0_2 (after hostOps0_1 (after hostOps0 (W0 m ρ c))) (Proc.devRef .tc main_arg2) = _
  after_results

end Cert.KernelIdeal.HostChain

end
-- ==== Proof.KernelValue.lean ====
/-
  The idealized kernel program's result, read as one function of its arguments.

  The run ends with the result buffer holding what the second tiled stage's write-backs leave.  That is the layer
  output (normalise, scale, shift, clip) of the aggregation the stage was entered with; the aggregation is the
  reference's own gather-scale-scatter of the first stage's result; the first stage's result is the product of the
  launched features and weights, which is the reference's matrix product; and the one-row parameter blocks are the
  parameter vectors, a reshape to one row keeping every entry where it was.  So the kernel program ends with the
  layer output of the reference's aggregation array — the term the reference's run ends with.
-/
import proofs.«155890_j48661979464167_1_alg».proof.Proof.KernelRun
import proofs.«155890_j48661979464167_1_alg».proof.Proof.DenseValue
import proofs.«155890_j48661979464167_1_alg».proof.Proof.LnValue
import proofs.«155890_j48661979464167_1_alg».proof.Proof.HostChain
import proofs.«155890_j48661979464167_1_alg».proof.Proof.RefValue
import Idealize.ShloMosaic.Lib.Pipeline.Value

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.Spec
open Cert.ReferenceIdeal.ReadP

/-- A vector reshaped to one row, read back as that row's vector, is the vector: entry q of the row sits at the same
    row-major position q. -/
theorem rowOf_reshape (x : S128.Idx → EReal) (h : S128.ShapeCasts S1x128) : rowOf (shapeCast S1x128 x h) = x := by
  funext j
  obtain ⟨q, rfl⟩ : ∃ q : Fin 128, j = ix1 q := ⟨j 0, eq_ix1 j⟩
  rw [rowOf_apply]
  refine shapeCast_apply x h (ix2 (0 : Fin 1) q) (ix1 q) ?_
  rw [Shape.rowMajor_val_one, Shape.rowMajor_val_two]
  show q.val = 0 * 128 + q.val
  omega

variable (m : (ℓ : Loc nD τ sig) → Buf (Elt Ideal) ℓ) (ρ : Dev nD → PrngReg)

/-- The first stage leaves the reference's matrix product of the launched features and weights. -/
theorem dense_result (c : Dev nD) :
    W4 m ρ c (Proc.devRef .tc main_v31)
      = val_main_v31 (F := Ideal) (m ((c.tc : Thread nD τ).loc main_arg0)) (m ((c.tc : Thread nD τ).loc main_arg2)) := by
  rw [show W4 m ρ c (Proc.devRef .tc main_v31) = (dat0 (V3 m ρ) c).arrAt 2 cfg0.N from W4_arr m ρ c 2,
    DenseValue.dense_final (V3 m ρ) c, HostChain.features_kept, HostChain.weights_kept,
    Cert.ReferenceIdeal.RefValue.ref_dense]

/-- The result buffer at the end of the run is the layer output of the reference's aggregation of the launched
    arguments. -/
theorem result_eq (c : Dev nD) :
    W6 m ρ c (Proc.devRef .tc main_v48)
      = lnRelu (val_main_v44 (F := Ideal) (m ((c.tc : Thread nD τ).loc main_arg0)) (m ((c.tc : Thread nD τ).loc main_arg1))
            (m ((c.tc : Thread nD τ).loc main_arg2)))
          (m ((c.tc : Thread nD τ).loc main_arg3)) (m ((c.tc : Thread nD τ).loc main_arg4))
          (m ((c.tc : Thread nD τ).loc main_arg5)) := by
  rw [show W6 m ρ c (Proc.devRef .tc main_v48) = (dat1 (V5 m ρ) c).arrAt 4 cfg1.N from W6_arr m ρ c 4,
    LnValue.ln_final (V5 m ρ) c, HostChain.aggregation m ρ c (dense_result m ρ c), HostChain.bias_row,
    HostChain.scale_row, HostChain.shift_row, rowOf_reshape, rowOf_reshape, rowOf_reshape]

/-- The idealized kernel program's run with its result named: every weakly fair execution terminates, nothing
    faulting, with the result buffer at the layer output of the reference's aggregation and the arguments unchanged. -/
theorem run : θ_run defs (onTc (τ := τ) (main (F := Ideal))) ⟨m, fun _ => 0, ρ⟩ (fun r => ∀ c : Dev nD,
      r.2.mem ((c.tc : Thread nD τ).loc main_v48)
        = lnRelu (val_main_v44 (F := Ideal) (m ((c.tc : Thread nD τ).loc main_arg0)) (m ((c.tc : Thread nD τ).loc main_arg1))
              (m ((c.tc : Thread nD τ).loc main_arg2)))
            (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.GenRun.run_main m ρ)

end Cert.KernelIdeal.KernelValue

end
-- ==== Proof.lean ====
/-
  One graph-convolution layer, tiled, against the same layer computed whole.

  Both programs build the same edge lists (a self-loop appended for every node), the same in-degrees and the same
  symmetric normalisation on the host, with the same operations in the same order.  They differ in two places.  The
  node-feature transform h = x · w is a whole-array product in the reference and, in the kernel program, twenty tiles
  of 5000 rows, each the product of its rows of x with all of w; over the extended reals the narrowing of the
  operands is the identity and each entry of either is the same sum over the 128 input features.  And the bias,
  row normalisation, scale, shift and clipping that follow the aggregation are whole-array operations in the
  reference and, in the kernel program, again twenty tiles of 5000 rows; every row is normalised from its own 128
  entries alone, with the same constants, so the tiles together are the whole.  Between the two, the gather, scaling
  and scatter-add are the same host operations applied to equal arrays, and are never opened.  No law of the
  extended reals beyond the zero word being zero is used, so the finiteness precondition is not needed.

  The frames of the two kernel programs are the generated ones; the reference's frame is its run with the result
  dropped; the idealization rewrote nothing, so there is nothing to preserve.
-/
import proofs.«155890_j48661979464167_1_alg».proof.Defs
import proofs.«155890_j48661979464167_1_alg».proof.Proof.Gen.Kernel
import proofs.«155890_j48661979464167_1_alg».proof.Proof.Gen.Kernel.Frame
import proofs.«155890_j48661979464167_1_alg».proof.Proof.Gen.KernelIdeal
import proofs.«155890_j48661979464167_1_alg».proof.Proof.Gen.KernelIdeal.Frame
import proofs.«155890_j48661979464167_1_alg».proof.Proof.Gen.ReferenceIdeal
import proofs.«155890_j48661979464167_1_alg».proof.Proof.Gen.Pre_finite_inputs
import proofs.«155890_j48661979464167_1_alg».proof.Proof.RefRun
import proofs.«155890_j48661979464167_1_alg».proof.Proof.RefRead
import proofs.«155890_j48661979464167_1_alg».proof.Proof.RefValue
import proofs.«155890_j48661979464167_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the layer output of the reference's aggregation array of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v72_eq, Cert.ReferenceIdeal.RefValue.ref_ln, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
